-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S256x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S2048x2048 : Shape := ⟨2, ![2048, 2048]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8x2048x64 .f32) (main_arg1 : FVec F S2048x2048 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8x2048x64 : Shape := ⟨3, ![8, 2048, 64]⟩
abbrev S2048x2048 : Shape := ⟨2, ![2048, 2048]⟩
abbrev S8x64x2048 : Shape := ⟨3, ![8, 64, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S1x256x64 : Shape := ⟨3, ![1, 256, 64]⟩
abbrev S1x64x2048 : Shape := ⟨3, ![1, 64, 2048]⟩
abbrev S1x256x1 : Shape := ⟨3, ![1, 256, 1]⟩
abbrev S1x1x2048 : Shape := ⟨3, ![1, 1, 2048]⟩
abbrev S1x256x2048 : Shape := ⟨3, ![1, 256, 2048]⟩
abbrev S256x64 : Shape := ⟨2, ![256, 64]⟩
abbrev S64x2048 : Shape := ⟨2, ![64, 2048]⟩
abbrev S256x1 : Shape := ⟨2, ![256, 1]⟩
abbrev S1x2048 : Shape := ⟨2, ![1, 2048]⟩
abbrev S256x2048 : Shape := ⟨2, ![256, 2048]⟩
abbrev S256 : Shape := ⟨1, ![256]⟩

abbrev nBuf : Space → Nat
  | .hbm => 18
  | .vmem => 16
  | .smem => 0
  | _ => 0

abbrev bufTy : (tb : Table) → Fin (tcTables nBuf tb) → BufTy
  | .hbm, ⟨0, _⟩ => ⟨S8x2048x64, .f32⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S8x2048x64, .bf16⟩
  | .hbm, ⟨7, _⟩ => ⟨S8x2048x64, .f32⟩
  | .hbm, ⟨8, _⟩ => ⟨S8x2048x64, .f32⟩
  | .hbm, ⟨9, _⟩ => ⟨S8x2048x64, .bf16⟩
  | .hbm, ⟨10, _⟩ => ⟨S8x64x2048, .bf16⟩
  | .hbm, ⟨11, _⟩ => ⟨S8x64x2048, .bf16⟩
  | .hbm, ⟨12, _⟩ => ⟨S8x2048x64, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x1x2048, .f32⟩
  | .hbm, ⟨17, _⟩ => ⟨S8x2048x2048, .f32⟩
  | .local _ .vmem, ⟨0, _⟩ => ⟨S1x256x64, .bf16⟩
  | .local _ .vmem, ⟨1, _⟩ => ⟨S1x256x64, .bf16⟩
  | .local _ .vmem, ⟨2, _⟩ => ⟨S1x256x64, .bf16⟩
  | .local _ .vmem, ⟨3, _⟩ => ⟨S1x256x64, .bf16⟩
  | .local _ .vmem, ⟨4, _⟩ => ⟨S1x64x2048, .bf16⟩
  | .local _ .vmem, ⟨5, _⟩ => ⟨S1x64x2048, .bf16⟩
  | .local _ .vmem, ⟨6, _⟩ => ⟨S1x64x2048, .bf16⟩
  | .local _ .vmem, ⟨7, _⟩ => ⟨S1x64x2048, .bf16⟩
  | .local _ .vmem, ⟨8, _⟩ => ⟨S1x256x1, .f32⟩
  | .local _ .vmem, ⟨9, _⟩ => ⟨S1x256x1, .f32⟩
  | .local _ .vmem, ⟨10, _⟩ => ⟨S1x1x2048, .f32⟩
  | .local _ .vmem, ⟨11, _⟩ => ⟨S1x1x2048, .f32⟩
  | .local _ .vmem, ⟨12, _⟩ => ⟨S2048x2048, .bf16⟩
  | .local _ .vmem, ⟨13, _⟩ => ⟨S2048x2048, .bf16⟩
  | .local _ .vmem, ⟨14, _⟩ => ⟨S1x256x2048, .f32⟩
  | .local _ .vmem, ⟨15, _⟩ => ⟨S1x256x2048, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  transposes_S8x2048x64_S8x64x2048_0_2_1 : S8x2048x64.Transposes [0, 2, 1] S8x64x2048
  reducesTo_S8x2048x64_S8x2048_d2 : S8x2048x64.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S256x1_S256x2048 : S256x1.Broadcasts S256x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S256x2048_S256 : S256x2048.Reduces [1] S256
  shapeCasts_S256_S256x1 : S256.ShapeCasts S256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x64_S64x2048_S256x2048_1_0_0_1_n_n_wf : DotDims.WF S256x64 S64x2048 S256x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S8x2048x64.size a
  hwx0_0 : ∀ i : grid0.Coords, EltTy.bits .bf16 = 32 ∨ (Rect.block (s := S8x2048x64) S1x256x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S8x2048x64.size a
  hwx0_1 : ∀ i : grid0.Coords, EltTy.bits .bf16 = 32 ∨ (Rect.block (s := S8x2048x64) S1x256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2048.size a ≤ S8x64x2048.size a
  hwx0_2 : ∀ i : grid0.Coords, EltTy.bits .bf16 = 32 ∨ (Rect.block (s := S8x64x2048) S1x64x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x2048.size a ≤ S8x64x2048.size a
  hwx0_3 : ∀ i : grid0.Coords, EltTy.bits .bf16 = 32 ∨ (Rect.block (s := S8x64x2048) S1x64x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S8x2048x1.size a
  hwx0_4 : ∀ i : grid0.Coords, EltTy.bits .f32 = 32 ∨ (Rect.block (s := S8x2048x1) S1x256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S8x1x2048.size a
  hwx0_5 : ∀ i : grid0.Coords, EltTy.bits .f32 = 32 ∨ (Rect.block (s := S8x1x2048) S1x1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .bf16 = 32 ∨ (Rect.block (s := S2048x2048) S2048x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x2048.size a ≤ S8x2048x2048.size a
  hwx0_8 : ∀ i : grid0.Coords, EltTy.bits .f32 = 32 ∨ (Rect.block (s := S8x2048x2048) S1x256x2048.size (cc0_transform_8 i) (hinb0_8 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v4) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S2048x2048 : Shape := ⟨2, ![2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S2048x2048, .f32⟩
  | .hbm, ⟨2, _⟩ => ⟨S8x2048x64, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x1x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .i1⟩
  | .hbm, ⟨21, _⟩ => ⟨S_, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .i1⟩
  | .hbm, ⟨28, _⟩ => ⟨S8x2048x2048, .f32⟩
  | .hbm, ⟨29, _⟩ => ⟨S_, .f32⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  reducesTo_S8x2048x64_S8x2048_d2 : S8x2048x64.ReducesTo [2] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  dot_S8x2048x64_S8x2048x64_S8x2048x2048_2_2_1_1_0_0_wf : DotDims.WF S8x2048x64 S8x2048x64 S8x2048x2048 [2] [2] [1] [1] [0] [0]
  dot_S8x2048x2048_S2048x2048_S8x2048x2048_2_0_01_1_n_n_wf : DotDims.WF S8x2048x2048 S2048x2048 S8x2048x2048 [2] [0] [0, 1] [1] [] []

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S2048x2048_S8x2048x2048_2_0_01_1_n_n : DotDims S8x2048x2048 S2048x2048 S8x2048x2048 where
  lhsContracting := [2]
  rhsContracting := [0]
  lhsNonContracting := [0, 1]
  rhsNonContracting := [1]
  lhsBatch := []
  rhsBatch := []
  wf := dot_S8x2048x2048_S2048x2048_S8x2048x2048_2_0_01_1_n_n_wf

class Facts : Prop extends Facts₀ where

variable [Facts]
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Spec.lean ====
import Idealize.ShloMosaic.PureOps.Ideal
import Idealize.ShloMosaic.PureOps.Ideal.Laws
import Idealize.ShloMosaic.Lib.ValueIdx
import Mathlib.Data.Finset.Fold
import proofs.«427150_j41609643164190_3_alg».proof.Proof.LibReal

/-!
  The function both programs compute, and the algebra that joins them.

  For a batch `n`, the points `x n p : ℝ^64` give squared norms `sqn n p = Σ_c x²`, inner products
  `gram n p j = Σ_c x n p c · x n j c`, the clamped squared distance `max (sqn p + sqn j − 2·gram p j) 0`, its
  guarded square root (zero where the clamp is zero) and the weight `exp (−½ · dist)`.  The logits are the
  weights' product with `w`, and the result is the row softmax of the logits, stabilised by the row maximum.

  The kernel forms each of its two matrix products as three products over a value and its remainder
  `v − v`.  On real numbers the remainder is zero, so the three products collapse to one (`split3`); this
  is the only place where finiteness of the inputs is used.
-/

noncomputable section

open scoped BigOperators

namespace Cert.Spec

open Idealize.ShloMosaic Idealize.ShloMosaic.ValueIdx Cert.LibReal

/-! ## The constants the programs spell -/

theorem zero_eq : Ideal.ofBits .f32 0x00000000#32 = 0 := Ideal.ofBits_zero_f32

theorem one_eq : Ideal.ofBits .f32 0x3F800000#32 = ((1 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem mhalf_eq : Ideal.ofBits .f32 0xBF000000#32 = ((-(1 / 2) : ℝ) : EReal) := by
  simp [Ideal.ofBits, Ideal.ieee, -EReal.coe_mul]; norm_num

/-! ## The scalar chain from two squared norms and an inner product to a weight -/

/-- The clamped squared distance `max (sr + sc − 2 g) 0`. -/
def dsq (sr sc g : EReal) : EReal :=
  max ((sr + sc) - Ideal.ofBits .f32 0x40000000#32 * g) (Ideal.ofBits .f32 0x00000000#32)

/-- Whether a clamped squared distance is positive, as the one-bit word a comparison gives. -/
def pos (d : EReal) : BitVec 1 := Ideal.cmp .ogt d (Ideal.ofBits .f32 0x00000000#32)

/-- The guarded square root: `√d` where `d > 0` (the root taken of `d` there and of one elsewhere), zero elsewhere. -/
def dist (d : EReal) : EReal :=
  Scalar.select (pos d) (Ideal.sqrt (Scalar.select (pos d) d (Ideal.ofBits .f32 0x3F800000#32)))
    (Ideal.ofBits .f32 0x00000000#32)

/-- The weight `exp (−½ · dist)` of a pair of points. -/
def weight (sr sc g : EReal) : EReal :=
  Ideal.exp (Ideal.ofBits .f32 0xBF000000#32 * dist (dsq sr sc g))

/-! ## A row's softmax -/

/-- The maximum of a row, folded from `−∞`. -/
def rowMax (L : Fin 2048 → EReal) : EReal :=
  (Finset.univ : Finset (Fin 2048)).fold max (Ideal.ofBits .f32 0xFF800000#32) L

/-- The softmax of a row at `k`: `exp (L k − max L) / Σ exp (L k' − max L)`. -/
def softmax (L : Fin 2048 → EReal) (k : Fin 2048) : EReal :=
  Ideal.div (Ideal.exp (L k - rowMax L)) (∑ k' : Fin 2048, Ideal.exp (L k' - rowMax L))

/-- Taking the maximum with `−∞` once more changes nothing: the fold already starts there. -/
theorem max_rowMax (L : Fin 2048 → EReal) : max (Ideal.ofBits .f32 0xFF800000#32) (rowMax L) = rowMax L :=
  max_eq_right ((Finset.le_fold_max _).mpr (Or.inl le_rfl))

/-! ## The result as one function of the two argument arrays -/

abbrev XArr := (⟨3, ![8, 2048, 64]⟩ : Shape).Idx → EReal
abbrev WArr := (⟨2, ![2048, 2048]⟩ : Shape).Idx → EReal
abbrev OArr := (⟨3, ![8, 2048, 2048]⟩ : Shape).Idx → EReal

/-- The squared norm of point `p` of batch `n` (summed from the zero the reduction starts at). -/
def sqn (x : XArr) (n : Fin 8) (p : Fin 2048) : EReal :=
  Ideal.ofBits .f32 0x00000000#32 + ∑ c : Fin 64, x (ix3 n p c) * x (ix3 n p c)

/-- The inner product of points `p` and `j` of batch `n`. -/
def gram (x : XArr) (n : Fin 8) (p j : Fin 2048) : EReal :=
  ∑ c : Fin 64, x (ix3 n p c) * x (ix3 n j c)

/-- The weight of the pair `(p, j)` in batch `n`. -/
def wgt (x : XArr) (n : Fin 8) (p j : Fin 2048) : EReal :=
  weight (sqn x n p) (sqn x n j) (gram x n p j)

/-- The logit: the weights of row `p` against column `k` of `w`. -/
def logit (x : XArr) (w : WArr) (n : Fin 8) (p k : Fin 2048) : EReal :=
  ∑ j : Fin 2048, wgt x n p j * w (ix2 j k)

/-- The result array: the row softmax of the logits. -/
def G (x : XArr) (w : WArr) : OArr :=
  fun i => softmax (fun k => logit x w (i 0) (i 1) k) (i 2)

/-! ## Real entries -/

theorem sub_self_of_isReal {v : EReal} : IsReal v → v - v = 0 := by
  rintro ⟨r, rfl⟩
  rw [← EReal.coe_sub, sub_self]; rfl

/-- A product formed as three products over a value and its remainder `v − v` is the one product, on real
    entries: the remainders are zero. -/
theorem split3 {n : ℕ} (a b : Fin n → EReal) (ha : ∀ j, IsReal (a j)) (hb : ∀ j, IsReal (b j)) :
    ((∑ j, a j * b j) + (∑ j, a j * (b j - b j))) + (∑ j, (a j - a j) * b j) = ∑ j, a j * b j := by
  have h1 : (∑ j, a j * (b j - b j)) = 0 :=
    Finset.sum_eq_zero fun j _ => by rw [sub_self_of_isReal (hb j), mul_zero]
  have h2 : (∑ j, (a j - a j) * b j) = 0 :=
    Finset.sum_eq_zero fun j _ => by rw [sub_self_of_isReal (ha j), zero_mul]
  rw [h1, h2, add_zero, add_zero]

theorem isReal_zero : IsReal (Ideal.ofBits .f32 0x00000000#32) := by rw [zero_eq]; exact IsReal.zero
theorem isReal_one : IsReal (Ideal.ofBits .f32 0x3F800000#32) := ⟨_, one_eq⟩
theorem isReal_two : IsReal (Ideal.ofBits .f32 0x40000000#32) := ⟨_, two_eq⟩
theorem isReal_mhalf : IsReal (Ideal.ofBits .f32 0xBF000000#32) := ⟨_, mhalf_eq⟩

/-- The square root of a nonnegative real is real. -/
theorem isReal_sqrt {d : EReal} (hd : IsReal d) (h0 : 0 ≤ d) : IsReal (Ideal.sqrt d) := by
  obtain ⟨r, rfl⟩ := hd
  have hr : ¬ r < 0 := not_lt.mpr (EReal.coe_nonneg.mp h0)
  rw [Ideal.sqrt_coe, if_neg hr]
  exact ⟨_, rfl⟩

theorem isReal_dsq {sr sc g : EReal} (hr : IsReal sr) (hc : IsReal sc) (hg : IsReal g) : IsReal (dsq sr sc g) :=
  IsReal.max (IsReal.sub (IsReal.add hr hc) (IsReal.mul isReal_two hg)) isReal_zero

theorem dsq_nonneg (sr sc g : EReal) : 0 ≤ dsq sr sc g := by
  unfold dsq
  rw [zero_eq]
  exact le_max_right _ _

theorem isReal_dist {d : EReal} (hd : IsReal d) (h0 : 0 ≤ d) : IsReal (dist d) := by
  unfold dist Scalar.select
  split
  · exact isReal_sqrt hd h0
  · exact isReal_zero

/-- Real squared norms and a real inner product give a real weight. -/
theorem isReal_weight {sr sc g : EReal} (hr : IsReal sr) (hc : IsReal sc) (hg : IsReal g) : IsReal (weight sr sc g) :=
  IsReal.exp (IsReal.mul isReal_mhalf (isReal_dist (isReal_dsq hr hc hg) (dsq_nonneg sr sc g)))

theorem isReal_sqn {x : XArr} (hx : ∀ i, IsReal (x i)) (n : Fin 8) (p : Fin 2048) : IsReal (sqn x n p) :=
  IsReal.add isReal_zero (IsReal.sum _ _ fun c _ => IsReal.mul (hx _) (hx _))

theorem isReal_gram {x : XArr} (hx : ∀ i, IsReal (x i)) (n : Fin 8) (p j : Fin 2048) : IsReal (gram x n p j) :=
  IsReal.sum _ _ fun c _ => IsReal.mul (hx _) (hx _)

theorem isReal_wgt {x : XArr} (hx : ∀ i, IsReal (x i)) (n : Fin 8) (p j : Fin 2048) : IsReal (wgt x n p j) :=
  isReal_weight (isReal_sqn hx n p) (isReal_sqn hx n j) (isReal_gram hx n p j)

end Cert.Spec

end
-- ==== Proof.BodyOps.lean ====
import proofs.«427150_j41609643164190_3_alg».proof.Proof.Gen.KernelIdeal.Skeleton
import proofs.«427150_j41609643164190_3_alg».proof.Proof.Spec
import Idealize.ShloMosaic.Lib.ValueIdx
import Idealize.ShloMosaic.PureOps.Ideal.Laws

/-!
  The body's two kinds of non-pointwise operation, read at an index over the extended reals: a matrix
  product into a zero accumulator is the sum over the contracted axis of the operands' products, and a
  reduction along a row is the sum, or the maximum folded from `−∞`, of the row's entries.
-/

noncomputable section

open scoped BigOperators

namespace Cert.KernelIdeal.Body

open Cert.KernelIdeal Cert.KernelIdeal.Gen Idealize.ShloMosaic Idealize.ShloMosaic.ValueIdx

/-! ## The operand indices of the two products, axis by axis -/

theorem lhs_small_0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem lhs_small_1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
theorem rhs_small_0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
theorem rhs_small_1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

theorem lhs_big_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhs_big_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhs_big_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhs_big_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-! ## The products at an index -/

/-- Rows of 64 against columns of 64: entry `(r, j)` is `Σ_q a[r, q] · b[q, j]`. -/
theorem matmul_small_apply (a : FVec Ideal S256x64 .bf16) (b : FVec Ideal S64x2048 .bf16) (r : Fin 256) (j : Fin 2048) :
    matmul dot_S256x64_S64x2048_S256x2048_1_0_0_1_n_n none a b (constant S256x2048 .f32 0x00000000#32) (ix2 r j)
      = ∑ q : Fin 64, a (ix2 r q) * b (ix2 q j) := by
  simp only [matmul]
  rw [Ideal.matmul_constant_zero_apply, ← Equiv.sum_comp (contrEquiv1 dot_S256x64_S64x2048_S256x2048_1_0_0_1_n_n 64 rfl rfl).symm]
  refine Finset.sum_congr rfl fun q _ => ?_
  have hk := contrEquiv1_symm_val dot_S256x64_S64x2048_S256x2048_1_0_0_1_n_n 64 rfl rfl q
  have el : dot_S256x64_S64x2048_S256x2048_1_0_0_1_n_n.lhsIdx (ix2 r j) ((contrEquiv1 dot_S256x64_S64x2048_S256x2048_1_0_0_1_n_n 64 rfl rfl).symm q) = ix2 r q := funext fun c => Fin.ext (by
    match c with
    | ⟨0, _⟩ => exact lhs_small_0 _ _
    | ⟨1, _⟩ => exact (lhs_small_1 _ _).trans hk)
  have er : dot_S256x64_S64x2048_S256x2048_1_0_0_1_n_n.rhsIdx (ix2 r j) ((contrEquiv1 dot_S256x64_S64x2048_S256x2048_1_0_0_1_n_n 64 rfl rfl).symm q) = ix2 q j := funext fun c => Fin.ext (by
    match c with
    | ⟨0, _⟩ => exact (rhs_small_0 _ _).trans hk
    | ⟨1, _⟩ => exact rhs_small_1 _ _)
  rw [el, er]

/-- Rows of 2048 against columns of 2048: entry `(r, j)` is `Σ_q a[r, q] · b[q, j]`. -/
theorem matmul_big_apply (a : FVec Ideal S256x2048 .bf16) (b : FVec Ideal S2048x2048 .bf16) (r : Fin 256) (j : Fin 2048) :
    matmul dot_S256x2048_S2048x2048_S256x2048_1_0_0_1_n_n none a b (constant S256x2048 .f32 0x00000000#32) (ix2 r j)
      = ∑ q : Fin 2048, a (ix2 r q) * b (ix2 q j) := by
  simp only [matmul]
  rw [Ideal.matmul_constant_zero_apply, ← Equiv.sum_comp (contrEquiv1 dot_S256x2048_S2048x2048_S256x2048_1_0_0_1_n_n 2048 rfl rfl).symm]
  refine Finset.sum_congr rfl fun q _ => ?_
  have hk := contrEquiv1_symm_val dot_S256x2048_S2048x2048_S256x2048_1_0_0_1_n_n 2048 rfl rfl q
  have el : dot_S256x2048_S2048x2048_S256x2048_1_0_0_1_n_n.lhsIdx (ix2 r j) ((contrEquiv1 dot_S256x2048_S2048x2048_S256x2048_1_0_0_1_n_n 2048 rfl rfl).symm q) = ix2 r q := funext fun c => Fin.ext (by
    match c with
    | ⟨0, _⟩ => exact lhs_big_0 _ _
    | ⟨1, _⟩ => exact (lhs_big_1 _ _).trans hk)
  have er : dot_S256x2048_S2048x2048_S256x2048_1_0_0_1_n_n.rhsIdx (ix2 r j) ((contrEquiv1 dot_S256x2048_S2048x2048_S256x2048_1_0_0_1_n_n 2048 rfl rfl).symm q) = ix2 q j := funext fun c => Fin.ext (by
    match c with
    | ⟨0, _⟩ => exact (rhs_big_0 _ _).trans hk
    | ⟨1, _⟩ => exact rhs_big_1 _ _)
  rw [el, er]

/-! ## The row reductions at an index -/

/-- The sum along row `r`. -/
theorem rowsum_apply (v : FVec Ideal S256x2048 .f32) (r : Fin 256) :
    multiReduction .add [1] S256 v 0x00000000#32 reduces_S256x2048_S256 (.inl rfl) rfl (ix1 r) = ∑ k : Fin 2048, v (ix2 r k) := by
  refine (Ideal.multiReduction_add_single v 0x00000000#32 reduces_S256x2048_S256 (.inl rfl) rfl (ix1 r)).trans ?_
  exact Finset.sum_congr rfl fun k _ => congrArg v (funext fun c => Fin.ext (by
    match c with
    | ⟨0, _⟩ => rfl
    | ⟨1, _⟩ => rfl))

/-- The maximum along row `r`, folded from `−∞`. -/
theorem rowmax_apply (v : FVec Ideal S256x2048 .f32) (r : Fin 256) :
    multiReduction .maximumf [1] S256 v 0xFF800000#32 reduces_S256x2048_S256 (.inl rfl) rfl (ix1 r) = Spec.rowMax (fun k => v (ix2 r k)) := by
  refine (Ideal.multiReduction_maximumf_single v 0xFF800000#32 reduces_S256x2048_S256 (.inl rfl) rfl (ix1 r)).trans ?_
  have hf : (v ∘ reduces_S256x2048_S256.lift (ix1 r)) = fun k => v (ix2 r k) :=
    funext fun k => congrArg v (funext fun c => Fin.ext (by
      match c with
      | ⟨0, _⟩ => rfl
      | ⟨1, _⟩ => rfl))
  rw [hf]
  rfl

end Cert.KernelIdeal.Body

end
-- ==== Proof.BodyValue.lean ====
import proofs.«427150_j41609643164190_3_alg».proof.Proof.Gen.KernelIdeal.Skeleton
import proofs.«427150_j41609643164190_3_alg».proof.Proof.Spec
import proofs.«427150_j41609643164190_3_alg».proof.Proof.BodyOps
import Idealize.ShloMosaic.Lib.Pipeline.Value
import Idealize.ShloMosaic.Lib.ValueIdx
import Idealize.ShloMosaic.Lib.ValueLayout
import Idealize.ShloMosaic.PureOps.Ideal.Laws

/-!
  The kernel body's stored value at an index, as a function of the blocks it loads.

  With `x0, x1` the value and remainder blocks of the query rows, `x2, x3` those of the transposed points,
  `x4, x5` the squared norms as a column and as a row, and `x6, x7` the value and remainder of `w`, the body
  stores, at row `r` and column `k`, the softmax of the row of logits `lgt r ·`, each logit the three-product
  form over the weights `wt r j`, each weight taken from the three-product inner product `cross r j`.

  The proof reads the payload from the outside in: the softmax of a block of logits (`smVec`), the logits
  of a block of weights (`lVec`), the weights of a block of sign bits and guarded roots (`wVec`), and the
  clamped squared distances those two are taken from; each stage is read at one index over a block that
  is a variable, and the stored payload is their composition.
-/

noncomputable section

open scoped BigOperators

namespace Cert.KernelIdeal.Body

open Cert.KernelIdeal Cert.KernelIdeal.Gen Idealize.ShloMosaic Idealize.ShloMosaic.ValueIdx

/-! ## Layout operations read at an index -/

/-- A `[256]` vector cast to a `[256, 1]` column reads, at `(r, z)`, the operand at `r`. -/
theorem cast_col_apply {α : Type} (v : S256.Idx → α) (r : Fin 256) (z : Fin 1) :
    shapeCast S256x1 v shapeCasts_S256_S256x1 (ix2 r z) = v (ix1 r) :=
  shapeCast_apply v _ _ _ (by
    have hz : z.val = 0 := by omega
    rw [Shape.rowMajor_val_two, Shape.rowMajor_val_one]
    show r.val = r.val * 1 + z.val
    rw [hz, Nat.mul_one, Nat.add_zero])

/-- A `[256, 1]` column broadcast to `[256, 2048]` reads, at `(r, j)`, the column at `r`. -/
theorem bcast_col_apply {α : Type} (v : S256x1.Idx → α) (r : Fin 256) (j : Fin 2048) :
    broadcastTo S256x2048 v broadcasts_S256x1_S256x2048 (ix2 r j) = v (ix2 r (0 : Fin 1)) := by
  refine broadcastTo_apply v _ (ix2 r j) (ix2 r (0 : Fin 1)) fun ax => ?_
  match ax with
  | ⟨0, _⟩ => rfl
  | ⟨1, _⟩ => rfl

/-! ## The squared distance, its sign bit and its guarded root, read at an index -/

/-- The clamped squared distance as the vector operations spell it, at one index. -/
theorem dsqVec_apply (b1 b2 m1 m2 m3 : FVec Ideal S256x2048 .f32) (i : S256x2048.Idx) :
    maximumf (subf (addf b1 b2) (mulf (broadcast S256x2048 (Scalar.ofBits .f32 0x40000000#32)) (addf (addf m1 m2) m3)))
        (broadcast S256x2048 (Scalar.ofBits .f32 0x00000000#32)) i
      = Spec.dsq (b1 i) (b2 i) ((m1 i + m2 i) + m3 i) := rfl

/-! ## The row softmax as the vector operations spell it -/

/-- A row's maximum, spread back over the row. -/
def rowMaxVec (L : FVec Ideal S256x2048 .f32) : FVec Ideal S256x2048 .f32 :=
  broadcastTo S256x2048
    (shapeCast S256x1 (multiReduction .maximumf [1] S256 L 0xFF800000#32 reduces_S256x2048_S256 (.inl rfl) rfl) shapeCasts_S256_S256x1)
    broadcasts_S256x1_S256x2048

theorem rowMaxVec_apply (L : FVec Ideal S256x2048 .f32) (r : Fin 256) (k : Fin 2048) :
    rowMaxVec L (ix2 r k) = Spec.rowMax (fun k' => L (ix2 r k')) := by
  unfold rowMaxVec
  rw [bcast_col_apply, cast_col_apply, rowmax_apply]

/-- A row's sum, spread back over the row. -/
def rowSumVec (E : FVec Ideal S256x2048 .f32) : FVec Ideal S256x2048 .f32 :=
  broadcastTo S256x2048
    (shapeCast S256x1 (multiReduction .add [1] S256 E 0x00000000#32 reduces_S256x2048_S256 (.inl rfl) rfl) shapeCasts_S256_S256x1)
    broadcasts_S256x1_S256x2048

theorem rowSumVec_apply (E : FVec Ideal S256x2048 .f32) (r : Fin 256) (k : Fin 2048) :
    rowSumVec E (ix2 r k) = ∑ k' : Fin 2048, E (ix2 r k') := by
  unfold rowSumVec
  rw [bcast_col_apply, cast_col_apply, rowsum_apply]

/-- The softmax of every row of `L`, with a leading unit axis. -/
def smVec (L : FVec Ideal S256x2048 .f32) : FVec Ideal S1x256x2048 .f32 :=
  shapeCast S1x256x2048
    (divf (exp (subf L (rowMaxVec L))) (rowSumVec (exp (subf L (rowMaxVec L)))))
    shapeCasts_S256x2048_S1x256x2048

theorem smVec_apply (L : FVec Ideal S256x2048 .f32) (u : Fin 1) (r : Fin 256) (k : Fin 2048) :
    smVec L (ix3 u r k) = Spec.softmax (fun k' => L (ix2 r k')) k := by
  unfold smVec
  refine (shapeCast_ab_1ab_apply _ _ u r k).trans ?_
  have hE : ∀ k' : Fin 2048, exp (subf L (rowMaxVec L)) (ix2 r k')
      = Ideal.exp (L (ix2 r k') - Spec.rowMax (fun k' => L (ix2 r k'))) := fun k' => by
    show Ideal.exp (L (ix2 r k') - rowMaxVec L (ix2 r k')) = _
    rw [rowMaxVec_apply]
  refine (divf_apply _ _ (ix2 r k)).trans ?_
  rw [rowSumVec_apply]
  simp only [hE]
  rfl

/-! ## The weights and the logits as the vector operations spell them -/

/-- The weights from the sign bits and the guarded roots. -/
def wVec (c : IVec S256x2048 1) (s : FVec Ideal S256x2048 .f32) : FVec Ideal S256x2048 .f32 :=
  exp (mulf (broadcast S256x2048 (Scalar.ofBits .f32 0xBF000000#32)) (select c s (broadcast S256x2048 (Scalar.ofBits .f32 0x00000000#32))))

theorem wVec_apply (c : IVec S256x2048 1) (s : FVec Ideal S256x2048 .f32) (i : S256x2048.Idx) :
    wVec c s i = Ideal.exp (Ideal.ofBits .f32 0xBF000000#32 * Scalar.select (c i) (s i) (Ideal.ofBits .f32 0x00000000#32)) := rfl

/-- The logits from the weights: weight·value + weight·remainder + (weight − weight)·value. -/
def lVec (w : FVec Ideal S256x2048 .f32) (a b : Vec Ideal S2048x2048 .bf16) : FVec Ideal S256x2048 .f32 :=
  addf
    (addf
      (matmul dot_S256x2048_S2048x2048_S256x2048_1_0_0_1_n_n none (truncf .bf16 w bitsLt_bf16_f32)
        (shapeCast S2048x2048 a shapeCasts_S2048x2048_S2048x2048 : FVec Ideal S2048x2048 .bf16) (constant S256x2048 .f32 0x00000000#32))
      (matmul dot_S256x2048_S2048x2048_S256x2048_1_0_0_1_n_n none (truncf .bf16 w bitsLt_bf16_f32)
        (shapeCast S2048x2048 b shapeCasts_S2048x2048_S2048x2048 : FVec Ideal S2048x2048 .bf16) (constant S256x2048 .f32 0x00000000#32)))
    (matmul dot_S256x2048_S2048x2048_S256x2048_1_0_0_1_n_n none (truncf .bf16 (subf w w) bitsLt_bf16_f32)
      (shapeCast S2048x2048 a shapeCasts_S2048x2048_S2048x2048 : FVec Ideal S2048x2048 .bf16) (constant S256x2048 .f32 0x00000000#32))

theorem lVec_apply (w : FVec Ideal S256x2048 .f32) (a b : Vec Ideal S2048x2048 .bf16) (r : Fin 256) (k : Fin 2048) :
    lVec w a b (ix2 r k)
      = ((∑ j : Fin 2048, (w (ix2 r j) : EReal) * (a (ix2 j k) : EReal)) + (∑ j : Fin 2048, (w (ix2 r j) : EReal) * (b (ix2 j k) : EReal)))
        + ∑ j : Fin 2048, ((w (ix2 r j) : EReal) - w (ix2 r j)) * (a (ix2 j k) : EReal) := by
  unfold lVec
  rw [shapeCast_self a, shapeCast_self b, addf_apply, addf_apply, matmul_big_apply, matmul_big_apply, matmul_big_apply]
  rfl

/-- The stored payload is the softmax of the logits of the weights. -/
theorem pay1_eq (c : IVec S256x2048 1) (s : FVec Ideal S256x2048 .f32) (a b : Vec Ideal S2048x2048 .bf16) :
    k0_pay1 (F := Ideal) c s a b = smVec (lVec (wVec c s) a b) := rfl

variable (x0 x1 : Vec Ideal S1x256x64 .bf16) (x2 x3 : Vec Ideal S1x64x2048 .bf16)
  (x4 : Vec Ideal S1x256x1 .f32) (x5 : Vec Ideal S1x1x2048 .f32) (x6 x7 : Vec Ideal S2048x2048 .bf16)

/-- The inner product of query row `r` with point `j`, as the body forms it: value·value + value·remainder +
    remainder·value. -/
def cross (r : Fin 256) (j : Fin 2048) : EReal :=
  ((∑ q : Fin 64, (x0 (ix3 0 r q) : EReal) * x2 (ix3 0 q j)) + (∑ q : Fin 64, (x0 (ix3 0 r q) : EReal) * x3 (ix3 0 q j)))
    + ∑ q : Fin 64, (x1 (ix3 0 r q) : EReal) * x2 (ix3 0 q j)

/-- The weight of the pair (row `r`, point `j`). -/
def wt (r : Fin 256) (j : Fin 2048) : EReal :=
  Spec.weight (x4 (ix3 0 r 0)) (x5 (ix3 0 0 j)) (cross x0 x1 x2 x3 r j)

/-- The logit at (row `r`, column `k`), as the body forms it: weight·value + weight·remainder + (weight − weight)·value. -/
def lgt (r : Fin 256) (k : Fin 2048) : EReal :=
  ((∑ j : Fin 2048, wt x0 x1 x2 x3 x4 x5 r j * (x6 (ix2 j k) : EReal)) + (∑ j : Fin 2048, wt x0 x1 x2 x3 x4 x5 r j * (x7 (ix2 j k) : EReal)))
    + ∑ j : Fin 2048, (wt x0 x1 x2 x3 x4 x5 r j - wt x0 x1 x2 x3 x4 x5 r j) * (x6 (ix2 j k) : EReal)

/-- The clamped squared distance of (row `r`, point `j`). -/
theorem pay2_apply (r : Fin 256) (j : Fin 2048) :
    k0_pay2 (F := Ideal) x0 x1 x2 x3 x4 x5 (ix2 r j)
      = Spec.dsq (x4 (ix3 0 r 0)) (x5 (ix3 0 0 j)) (cross x0 x1 x2 x3 r j) := by
  unfold k0_pay2
  refine (dsqVec_apply _ _ _ _ _ (ix2 r j)).trans ?_
  rw [bcast_col_apply, broadcastTo_1b_ab_apply, matmul_small_apply, matmul_small_apply, matmul_small_apply]
  simp only [shapeCast_1ab_ab_apply]
  rfl

/-- Its sign bit. -/
theorem pay3_apply (r : Fin 256) (j : Fin 2048) :
    k0_pay3 (F := Ideal) x0 x1 x2 x3 x4 x5 (ix2 r j)
      = Spec.pos (Spec.dsq (x4 (ix3 0 r 0)) (x5 (ix3 0 0 j)) (cross x0 x1 x2 x3 r j)) := by
  unfold k0_pay3
  refine (cmpf_apply .ogt _ _ (ix2 r j)).trans ?_
  rw [pay2_apply]
  rfl

/-- Its guarded root: the root of the distance where that is positive, of one elsewhere. -/
theorem pay4_apply (r : Fin 256) (j : Fin 2048) :
    k0_pay4 (F := Ideal) x0 x1 x2 x3 x4 x5 (ix2 r j)
      = Ideal.sqrt (Scalar.select (Spec.pos (Spec.dsq (x4 (ix3 0 r 0)) (x5 (ix3 0 0 j)) (cross x0 x1 x2 x3 r j)))
          (Spec.dsq (x4 (ix3 0 r 0)) (x5 (ix3 0 0 j)) (cross x0 x1 x2 x3 r j)) (Ideal.ofBits .f32 0x3F800000#32)) := by
  unfold k0_pay4
  show Ideal.sqrt (Scalar.select (FloatOps.cmpf .ogt (k0_pay2 (F := Ideal) x0 x1 x2 x3 x4 x5 (ix2 r j)) (Ideal.ofBits .f32 0x00000000#32))
      (k0_pay2 (F := Ideal) x0 x1 x2 x3 x4 x5 (ix2 r j)) (Ideal.ofBits .f32 0x3F800000#32)) = _
  rw [pay2_apply]
  rfl

/-- The weights the body forms are the specification's. -/
theorem wVec_pay (r : Fin 256) (j : Fin 2048) :
    wVec (k0_pay3 (F := Ideal) x0 x1 x2 x3 x4 x5) (k0_pay4 (F := Ideal) x0 x1 x2 x3 x4 x5) (ix2 r j) = wt x0 x1 x2 x3 x4 x5 r j := by
  rw [wVec_apply, pay3_apply, pay4_apply]
  rfl

/-- The stored value at `(0, r, k)` is the softmax of row `r`'s logits at `k`. -/
theorem pay_apply (u : Fin 1) (r : Fin 256) (k : Fin 2048) :
    k0_pay1 (F := Ideal) (k0_pay3 (F := Ideal) x0 x1 x2 x3 x4 x5) (k0_pay4 (F := Ideal) x0 x1 x2 x3 x4 x5) x6 x7 (ix3 u r k)
      = Spec.softmax (fun k' => lgt x0 x1 x2 x3 x4 x5 x6 x7 r k') k := by
  rw [pay1_eq]
  refine (smVec_apply _ u r k).trans ?_
  refine congrArg (fun L => Spec.softmax L k) (funext fun k' => ?_)
  rw [lVec_apply]
  simp only [wVec_pay]
  rfl

end Cert.KernelIdeal.Body

end
-- ==== Proof.Staged.lean ====
import proofs.«427150_j41609643164190_3_alg».proof.Proof.Gen.KernelIdeal.Frame
import proofs.«427150_j41609643164190_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

/-!
  What the region finds in the eight arrays it stages, index by index, in terms of the two argument arrays
  `X` (the points) and `W`: the value arrays are the arguments themselves (a change of format is the identity),
  the remainder arrays are `v − v`, the transposed arrays read the points with the last two coordinates
  exchanged, and the two squared-norm arrays hold `Spec.sqn` on a unit axis.
-/

noncomputable section

open scoped BigOperators

namespace Cert.KernelIdeal.Staged

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The points, as launched. -/
abbrev X (c : Dev nD) : Spec.XArr := m ((c : Thread nD τ).loc main_arg0)
/-- The matrix `w`, as launched. -/
abbrev W (c : Dev nD) : Spec.WArr := m ((c : Thread nD τ).loc main_arg1)

/-! ## Each staged array as one term of the arguments -/

/-- The value part of a points array: the array in the narrow format. -/
abbrev hiX (x : FVec Ideal S8x2048x64 .f32) : FVec Ideal S8x2048x64 .bf16 := truncf .bf16 x bitsLt_bf16_f32
/-- The remainder part of a points array: the array less its value part widened back, in the narrow format. -/
abbrev loX (x : FVec Ideal S8x2048x64 .f32) : FVec Ideal S8x2048x64 .bf16 :=
  truncf .bf16 (subf x (extf .f32 (hiX x) bitsLt_bf16_f32)) bitsLt_bf16_f32
/-- The same two parts of the matrix. -/
abbrev hiW (w : FVec Ideal S2048x2048 .f32) : FVec Ideal S2048x2048 .bf16 := truncf .bf16 w bitsLt_bf16_f32
abbrev loW (w : FVec Ideal S2048x2048 .f32) : FVec Ideal S2048x2048 .bf16 :=
  truncf .bf16 (subf w (extf .f32 (hiW w) bitsLt_bf16_f32)) bitsLt_bf16_f32
/-- The squared norms of the points: the squares summed over the last axis from the constant zero. -/
abbrev sqX (x : FVec Ideal S8x2048x64 .f32) : FVec Ideal S8x2048 .f32 :=
  Host.reduceAdd (mulf x x) (constant (F := Ideal) S_ .f32 0x00000000#32) reducesTo_S8x2048x64_S8x2048_d2 h_S_

theorem xhi_eq (c : Dev nD) :
    (V m c main_v4 : S8x2048x64.Idx → EReal) = hiX (X m c) := by
  dsimp only [Gen.V, Gen.hostOps0]; after_results

theorem xlo_eq (c : Dev nD) :
    (V m c main_v7 : S8x2048x64.Idx → EReal) = loX (X m c) := by
  dsimp only [Gen.V, Gen.hostOps0]; after_results

theorem xthi_eq (c : Dev nD) :
    (V m c main_v8 : S8x64x2048.Idx → EReal)
      = (transpose S8x64x2048 [0, 2, 1] (hiX (X m c)) transposes_S8x2048x64_S8x64x2048_0_2_1 : FVec Ideal S8x64x2048 .bf16) := by
  dsimp only [Gen.V, Gen.hostOps0]; after_results

theorem xtlo_eq (c : Dev nD) :
    (V m c main_v9 : S8x64x2048.Idx → EReal)
      = (transpose S8x64x2048 [0, 2, 1] (loX (X m c)) transposes_S8x2048x64_S8x64x2048_0_2_1 : FVec Ideal S8x64x2048 .bf16) := by
  dsimp only [Gen.V, Gen.hostOps0]; after_results

theorem sqrow_eq (c : Dev nD) :
    (V m c main_v12 : S8x2048x1.Idx → EReal)
      = (broadcastInDim S8x2048x1 ![0, 1] bcast_S8x2048_S8x2048x1_0_1 (sqX (X m c)) : FVec Ideal S8x2048x1 .f32) := by
  dsimp only [Gen.V, Gen.hostOps0]; after_results

theorem sqcol_eq (c : Dev nD) :
    (V m c main_v13 : S8x1x2048.Idx → EReal)
      = (broadcastInDim S8x1x2048 ![0, 2] bcast_S8x2048_S8x1x2048_0_2 (sqX (X m c)) : FVec Ideal S8x1x2048 .f32) := by
  dsimp only [Gen.V, Gen.hostOps0]; after_results

theorem whi_eq (c : Dev nD) :
    (V m c main_v0 : S2048x2048.Idx → EReal) = hiW (W m c) := by
  dsimp only [Gen.V, Gen.hostOps0]; after_results

theorem wlo_eq (c : Dev nD) :
    (V m c main_v3 : S2048x2048.Idx → EReal) = loW (W m c) := by
  dsimp only [Gen.V, Gen.hostOps0]; after_results

/-! ## The terms read at an index -/

/-- The host's sum of squares over the last axis, read at `(n, p)`, is the squared norm of point `p` of batch `n`. -/
theorem sqX_apply (x : FVec Ideal S8x2048x64 .f32) (n : Fin 8) (p : Fin 2048) :
    sqX x (ix2 n p) = Spec.sqn x n p := by
  dsimp only [sqX]
  -- at the extended reals the host's sum over one axis is the initial value plus the sum over that axis's coordinates
  simp only [Host.reduceAdd, Ideal.hostReduceAdd_def]
  rw [Ideal.hostReduceAdd_single reducesTo_S8x2048x64_S8x2048_d2 (by decide)]
  unfold Spec.sqn
  refine congrArg₂ (· + ·) rfl (Finset.sum_congr rfl fun k _ => ?_)
  -- the index `(n, p)` with `k` inserted on the summed axis is `(n, p, k)`; the product array there is `x · x`
  refine (congrArg (mulf x x) (?_ : _ = ix3 n p k)).trans rfl
  exact funext fun a => Fin.ext (by match a with | ⟨0, _⟩ => rfl | ⟨1, _⟩ => rfl | ⟨2, _⟩ => rfl)

theorem xhi_apply (c : Dev nD) (n : Fin 8) (p : Fin 2048) (q : Fin 64) :
    (V m c main_v4 : S8x2048x64.Idx → EReal) (ix3 n p q) = X m c (ix3 n p q) := by
  rw [xhi_eq]; rfl

theorem xlo_apply (c : Dev nD) (n : Fin 8) (p : Fin 2048) (q : Fin 64) :
    (V m c main_v7 : S8x2048x64.Idx → EReal) (ix3 n p q) = X m c (ix3 n p q) - X m c (ix3 n p q) := by
  rw [xlo_eq]; rfl

theorem xthi_apply (c : Dev nD) (n : Fin 8) (q : Fin 64) (j : Fin 2048) :
    (V m c main_v8 : S8x64x2048.Idx → EReal) (ix3 n q j) = X m c (ix3 n j q) := by
  rw [xthi_eq]
  exact transpose_ix3_021_apply _ transposes_S8x2048x64_S8x64x2048_0_2_1 n q j

theorem xtlo_apply (c : Dev nD) (n : Fin 8) (q : Fin 64) (j : Fin 2048) :
    (V m c main_v9 : S8x64x2048.Idx → EReal) (ix3 n q j) = X m c (ix3 n j q) - X m c (ix3 n j q) := by
  rw [xtlo_eq]
  exact transpose_ix3_021_apply _ transposes_S8x2048x64_S8x64x2048_0_2_1 n q j

theorem sqrow_apply (c : Dev nD) (n : Fin 8) (p : Fin 2048) (u : Fin 1) :
    (V m c main_v12 : S8x2048x1.Idx → EReal) (ix3 n p u) = Spec.sqn (X m c) n p := by
  rw [sqrow_eq]
  refine (broadcastInDim_apply _ bcast_S8x2048_S8x2048x1_0_1 _ (ix3 n p u) (ix2 n p) (fun a => match a with
    | ⟨0, _⟩ => by show n.val = if (8 : Nat) = 1 then 0 else n.val; rw [if_neg (by decide)]
    | ⟨1, _⟩ => by show p.val = if (2048 : Nat) = 1 then 0 else p.val; rw [if_neg (by decide)])).trans ?_
  exact sqX_apply _ n p

theorem sqcol_apply (c : Dev nD) (n : Fin 8) (u : Fin 1) (j : Fin 2048) :
    (V m c main_v13 : S8x1x2048.Idx → EReal) (ix3 n u j) = Spec.sqn (X m c) n j := by
  rw [sqcol_eq]
  refine (broadcastInDim_apply _ bcast_S8x2048_S8x1x2048_0_2 _ (ix3 n u j) (ix2 n j) (fun a => match a with
    | ⟨0, _⟩ => by show n.val = if (8 : Nat) = 1 then 0 else n.val; rw [if_neg (by decide)]
    | ⟨1, _⟩ => by show j.val = if (2048 : Nat) = 1 then 0 else j.val; rw [if_neg (by decide)])).trans ?_
  exact sqX_apply _ n j

theorem whi_apply (c : Dev nD) (j k : Fin 2048) :
    (V m c main_v0 : S2048x2048.Idx → EReal) (ix2 j k) = W m c (ix2 j k) := by
  rw [whi_eq]; rfl

theorem wlo_apply (c : Dev nD) (j k : Fin 2048) :
    (V m c main_v3 : S2048x2048.Idx → EReal) (ix2 j k) = W m c (ix2 j k) - W m c (ix2 j k) := by
  rw [wlo_eq]; rfl

end Cert.KernelIdeal.Staged

end
-- ==== Proof.Blocks.lean ====
import proofs.«427150_j41609643164190_3_alg».proof.Proof.Gen.KernelIdeal.Value
import proofs.«427150_j41609643164190_3_alg».proof.Proof.BodyValue
import proofs.«427150_j41609643164190_3_alg».proof.Proof.Staged
import Idealize.ShloMosaic.Lib.Pipeline.Value
import Idealize.ShloMosaic.Lib.Tactic

/-!
  From blocks to the array.

  Grid point `t` works on batch `bat t` and on the 256 query rows `row t r` of that batch.  Its input blocks
  are the matching rows of the value and remainder points, the whole transposed batch, the matching squared
  norms, and the whole of `w`; so its body's logits are the specification's logits of those rows once the
  remainder products are dropped (`Spec.split3`, on real entries), and what it writes back is block `t` of
  `Spec.G`.  The 64 blocks tile the result array, which therefore ends holding `Spec.G` everywhere.
-/

set_option maxRecDepth 16384

noncomputable section

open scoped BigOperators

namespace Cert.KernelIdeal.Blocks

open Cert.KernelIdeal Cert.KernelIdeal.Gen Cert.KernelIdeal.Staged
open Idealize.ShloMosaic Idealize.ShloMosaic.TcCoe Idealize.SL.Sem Idealize.ShloMosaic.ValueIdx Cert.LibReal
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps, decided over the 64 grid points -/

/-- The output's block index is (batch, row block, 0), both below 8. -/
theorem idx_out : ∀ t : Fin cfg0.N, win0_8.index t (0 : Fin 3) ≤ 7 ∧ win0_8.index t (1 : Fin 3) ≤ 7 ∧ win0_8.index t (2 : Fin 3) = 0 :=
  (by decide +kernel : ∀ t : Fin grid0.N, _)

/-- The query rows' value and remainder blocks move with the output's. -/
theorem idx_rows : ∀ t : Fin cfg0.N, win0_0.index t (0 : Fin 3) = win0_8.index t (0 : Fin 3) ∧ win0_0.index t (1 : Fin 3) = win0_8.index t (1 : Fin 3) ∧ win0_0.index t (2 : Fin 3) = 0
    ∧ win0_1.index t (0 : Fin 3) = win0_8.index t (0 : Fin 3) ∧ win0_1.index t (1 : Fin 3) = win0_8.index t (1 : Fin 3) ∧ win0_1.index t (2 : Fin 3) = 0 :=
  (by decide +kernel : ∀ t : Fin grid0.N, _)

/-- The transposed points' blocks are the output's whole batch. -/
theorem idx_cols : ∀ t : Fin cfg0.N, win0_2.index t (0 : Fin 3) = win0_8.index t (0 : Fin 3) ∧ win0_2.index t (1 : Fin 3) = 0 ∧ win0_2.index t (2 : Fin 3) = 0
    ∧ win0_3.index t (0 : Fin 3) = win0_8.index t (0 : Fin 3) ∧ win0_3.index t (1 : Fin 3) = 0 ∧ win0_3.index t (2 : Fin 3) = 0 :=
  (by decide +kernel : ∀ t : Fin grid0.N, _)

/-- The squared norms: a column block that moves with the output's rows, and the batch's whole row. -/
theorem idx_norms : ∀ t : Fin cfg0.N, win0_4.index t (0 : Fin 3) = win0_8.index t (0 : Fin 3) ∧ win0_4.index t (1 : Fin 3) = win0_8.index t (1 : Fin 3) ∧ win0_4.index t (2 : Fin 3) = 0
    ∧ win0_5.index t (0 : Fin 3) = win0_8.index t (0 : Fin 3) ∧ win0_5.index t (1 : Fin 3) = 0 ∧ win0_5.index t (2 : Fin 3) = 0 :=
  (by decide +kernel : ∀ t : Fin grid0.N, _)

/-- Both halves of `w` are staged whole at every point. -/
theorem idx_w : ∀ t : Fin cfg0.N, win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every (batch, row block) is some point's. -/
theorem idx_onto : ∀ (q0 : Fin 8) (q1 : Fin 8), ∃ t : Fin cfg0.N, win0_8.index t = ![q0.val, q1.val, 0] :=
  (by decide +kernel : ∀ (q0 : Fin 8) (q1 : Fin 8), ∃ t : Fin grid0.N, win0_8.index t = ![q0.val, q1.val, 0])

/-- The batch point `t` works on. -/
def bat (t : Fin cfg0.N) : Fin 8 := ⟨win0_8.index t (0 : Fin 3), by have := (idx_out t).1; omega⟩

/-- The point of the batch that row `r` of point `t`'s block is. -/
def row (t : Fin cfg0.N) (r : Fin 256) : Fin 2048 :=
  ⟨win0_8.index t (1 : Fin 3) * 256 + r.val, by have := (idx_out t).2.1; have := r.isLt; omega⟩

/-! ## Each input block, read off the arguments -/

theorem blk0_apply (c : Dev nD) (t : Fin cfg0.N) (u : Fin 1) (r : Fin 256) (q : Fin 64) :
    (iblk m c 0 t : Vec Ideal S1x256x64 .bf16) (ix3 u r q) = X m c (ix3 (bat t) (row t r) q) := by
  refine Eq.trans ?_ (xhi_apply m c (bat t) (row t r) q)
  unfold iblk
  rw [View.read_apply]
  show V m c main_v4 _ = V m c main_v4 _
  congr 1
  funext a
  apply Fin.ext
  obtain ⟨e0, e1, e2, -⟩ := idx_rows t
  have hu : u.val = 0 := by omega
  match a with
  | ⟨0, _⟩ => show win0_0.index t (0 : Fin 3) * 1 + 1 * u.val = win0_8.index t (0 : Fin 3); omega
  | ⟨1, _⟩ => show win0_0.index t (1 : Fin 3) * 256 + 1 * r.val = win0_8.index t (1 : Fin 3) * 256 + r.val; omega
  | ⟨2, _⟩ => show win0_0.index t (2 : Fin 3) * 64 + 1 * q.val = q.val; omega

theorem blk1_apply (c : Dev nD) (t : Fin cfg0.N) (u : Fin 1) (r : Fin 256) (q : Fin 64) :
    (iblk m c 1 t : Vec Ideal S1x256x64 .bf16) (ix3 u r q) = X m c (ix3 (bat t) (row t r) q) - X m c (ix3 (bat t) (row t r) q) := by
  refine Eq.trans ?_ (xlo_apply m c (bat t) (row t r) q)
  unfold iblk
  rw [View.read_apply]
  show V m c main_v7 _ = V m c main_v7 _
  congr 1
  funext a
  apply Fin.ext
  obtain ⟨-, -, -, e0, e1, e2⟩ := idx_rows t
  have hu : u.val = 0 := by omega
  match a with
  | ⟨0, _⟩ => show win0_1.index t (0 : Fin 3) * 1 + 1 * u.val = win0_8.index t (0 : Fin 3); omega
  | ⟨1, _⟩ => show win0_1.index t (1 : Fin 3) * 256 + 1 * r.val = win0_8.index t (1 : Fin 3) * 256 + r.val; omega
  | ⟨2, _⟩ => show win0_1.index t (2 : Fin 3) * 64 + 1 * q.val = q.val; omega

theorem blk2_apply (c : Dev nD) (t : Fin cfg0.N) (u : Fin 1) (q : Fin 64) (j : Fin 2048) :
    (iblk m c 2 t : Vec Ideal S1x64x2048 .bf16) (ix3 u q j) = X m c (ix3 (bat t) j q) := by
  refine Eq.trans ?_ (xthi_apply m c (bat t) q j)
  unfold iblk
  rw [View.read_apply]
  show V m c main_v8 _ = V m c main_v8 _
  congr 1
  funext a
  apply Fin.ext
  obtain ⟨e0, e1, e2, -⟩ := idx_cols t
  have hu : u.val = 0 := by omega
  match a with
  | ⟨0, _⟩ => show win0_2.index t (0 : Fin 3) * 1 + 1 * u.val = win0_8.index t (0 : Fin 3); omega
  | ⟨1, _⟩ => show win0_2.index t (1 : Fin 3) * 64 + 1 * q.val = q.val; omega
  | ⟨2, _⟩ => show win0_2.index t (2 : Fin 3) * 2048 + 1 * j.val = j.val; omega

theorem blk3_apply (c : Dev nD) (t : Fin cfg0.N) (u : Fin 1) (q : Fin 64) (j : Fin 2048) :
    (iblk m c 3 t : Vec Ideal S1x64x2048 .bf16) (ix3 u q j) = X m c (ix3 (bat t) j q) - X m c (ix3 (bat t) j q) := by
  refine Eq.trans ?_ (xtlo_apply m c (bat t) q j)
  unfold iblk
  rw [View.read_apply]
  show V m c main_v9 _ = V m c main_v9 _
  congr 1
  funext a
  apply Fin.ext
  obtain ⟨-, -, -, e0, e1, e2⟩ := idx_cols t
  have hu : u.val = 0 := by omega
  match a with
  | ⟨0, _⟩ => show win0_3.index t (0 : Fin 3) * 1 + 1 * u.val = win0_8.index t (0 : Fin 3); omega
  | ⟨1, _⟩ => show win0_3.index t (1 : Fin 3) * 64 + 1 * q.val = q.val; omega
  | ⟨2, _⟩ => show win0_3.index t (2 : Fin 3) * 2048 + 1 * j.val = j.val; omega

theorem blk4_apply (c : Dev nD) (t : Fin cfg0.N) (u : Fin 1) (r : Fin 256) (v : Fin 1) :
    (iblk m c 4 t : Vec Ideal S1x256x1 .f32) (ix3 u r v) = Spec.sqn (X m c) (bat t) (row t r) := by
  refine Eq.trans ?_ (sqrow_apply m c (bat t) (row t r) v)
  unfold iblk
  rw [View.read_apply]
  show V m c main_v12 _ = V m c main_v12 _
  congr 1
  funext a
  apply Fin.ext
  obtain ⟨e0, e1, e2, -⟩ := idx_norms t
  have hu : u.val = 0 := by omega
  match a with
  | ⟨0, _⟩ => show win0_4.index t (0 : Fin 3) * 1 + 1 * u.val = win0_8.index t (0 : Fin 3); omega
  | ⟨1, _⟩ => show win0_4.index t (1 : Fin 3) * 256 + 1 * r.val = win0_8.index t (1 : Fin 3) * 256 + r.val; omega
  | ⟨2, _⟩ => show win0_4.index t (2 : Fin 3) * 1 + 1 * v.val = v.val; omega

theorem blk5_apply (c : Dev nD) (t : Fin cfg0.N) (u : Fin 1) (v : Fin 1) (j : Fin 2048) :
    (iblk m c 5 t : Vec Ideal S1x1x2048 .f32) (ix3 u v j) = Spec.sqn (X m c) (bat t) j := by
  refine Eq.trans ?_ (sqcol_apply m c (bat t) v j)
  unfold iblk
  rw [View.read_apply]
  show V m c main_v13 _ = V m c main_v13 _
  congr 1
  funext a
  apply Fin.ext
  obtain ⟨-, -, -, e0, e1, e2⟩ := idx_norms t
  have hu : u.val = 0 := by omega
  match a with
  | ⟨0, _⟩ => show win0_5.index t (0 : Fin 3) * 1 + 1 * u.val = win0_8.index t (0 : Fin 3); omega
  | ⟨1, _⟩ => show win0_5.index t (1 : Fin 3) * 1 + 1 * v.val = v.val; omega
  | ⟨2, _⟩ => show win0_5.index t (2 : Fin 3) * 2048 + 1 * j.val = j.val; omega

theorem blk6_apply (c : Dev nD) (t : Fin cfg0.N) (j k : Fin 2048) :
    (iblk m c 6 t : Vec Ideal S2048x2048 .bf16) (ix2 j k) = W m c (ix2 j k) := by
  refine Eq.trans ?_ (whi_apply m c j k)
  unfold iblk
  rw [View.read_apply]
  show V m c main_v0 _ = V m c main_v0 _
  congr 1
  funext a
  apply Fin.ext
  obtain ⟨e0, e1, -⟩ := idx_w t
  match a with
  | ⟨0, _⟩ => show win0_6.index t (0 : Fin 2) * 2048 + 1 * j.val = j.val; omega
  | ⟨1, _⟩ => show win0_6.index t (1 : Fin 2) * 2048 + 1 * k.val = k.val; omega

theorem blk7_apply (c : Dev nD) (t : Fin cfg0.N) (j k : Fin 2048) :
    (iblk m c 7 t : Vec Ideal S2048x2048 .bf16) (ix2 j k) = W m c (ix2 j k) - W m c (ix2 j k) := by
  refine Eq.trans ?_ (wlo_apply m c j k)
  unfold iblk
  rw [View.read_apply]
  show V m c main_v3 _ = V m c main_v3 _
  congr 1
  funext a
  apply Fin.ext
  obtain ⟨-, -, e0, e1⟩ := idx_w t
  match a with
  | ⟨0, _⟩ => show win0_7.index t (0 : Fin 2) * 2048 + 1 * j.val = j.val; omega
  | ⟨1, _⟩ => show win0_7.index t (1 : Fin 2) * 2048 + 1 * k.val = k.val; omega

/-! ## The body's logits at point `t` are the specification's -/

/-- The weights a point forms are the specification's: its three-product inner product is the one product. -/
theorem wt_eq (hx : ∀ c i, IsReal (X m c i)) (c : Dev nD) (t : Fin cfg0.N) (r : Fin 256) (j : Fin 2048) :
    Body.wt (iblk m c 0 t) (iblk m c 1 t) (iblk m c 2 t) (iblk m c 3 t) (iblk m c 4 t) (iblk m c 5 t) r j = Spec.wgt (X m c) (bat t) (row t r) j := by
  unfold Body.wt Body.cross Spec.wgt
  rw [blk4_apply m c t 0 r 0, blk5_apply m c t 0 0 j]
  refine congrArg (Spec.weight _ _) ?_
  simp only [blk0_apply m c t 0 r, blk1_apply m c t 0 r, blk2_apply m c t 0, blk3_apply m c t 0]
  exact Spec.split3 (fun q => X m c (ix3 (bat t) (row t r) q)) (fun q => X m c (ix3 (bat t) j q))
    (fun q => hx c _) (fun q => hx c _)

/-- The logits a point forms are the specification's: the weights are real, and so are the entries of `w`. -/
theorem lgt_eq (hx : ∀ c i, IsReal (X m c i)) (hw : ∀ c i, IsReal (W m c i)) (c : Dev nD) (t : Fin cfg0.N) (r : Fin 256) (k : Fin 2048) :
    Body.lgt (iblk m c 0 t) (iblk m c 1 t) (iblk m c 2 t) (iblk m c 3 t) (iblk m c 4 t) (iblk m c 5 t) (iblk m c 6 t) (iblk m c 7 t) r k = Spec.logit (X m c) (W m c) (bat t) (row t r) k := by
  unfold Body.lgt Spec.logit
  simp only [wt_eq m hx c t r, blk6_apply m c t, blk7_apply m c t]
  exact Spec.split3 (fun j => Spec.wgt (X m c) (bat t) (row t r) j) (fun j => W m c (ix2 j k))
    (fun j => Spec.isReal_wgt (hx c) (bat t) (row t r) j) (fun j => hw c _)

/-! ## What a point writes back, the cover, the array -/

/-- Point `t` writes back block `t` of `Spec.G`. -/
theorem flushed_eq (hx : ∀ c i, IsReal (X m c i)) (hw : ∀ c i, IsReal (W m c i)) (c : Dev nD) (t : Fin cfg0.N) :
    (dats m 0 c).flushed 8 t = ((cfg0.win 8).blk t).view.read (Elt Ideal) (Spec.G (X m c) (W m c)) := by
  rw [Value.flushed8]
  unfold out0_8
  rw [View.canon_unit_zero hz3]
  simp only [View.ld_unit_zero (S := S1x256x64) hz3, View.ld_unit_zero (S := S1x64x2048) hz3,
    View.ld_unit_zero (S := S1x256x1) hz3, View.ld_unit_zero (S := S1x1x2048) hz3, View.ld_unit_zero (S := S2048x2048) hz2]
  funext y
  obtain ⟨u, r, k, rfl⟩ : ∃ (u : Fin 1) (r : Fin 256) (k : Fin 2048), y = ix3 u r k := ⟨y 0, y 1, y 2, eq_ix3 y⟩
  rw [View.read_apply]
  have he : ((cfg0.win 8).blk t).view.emb (ix3 u r k) = ix3 (bat t) (row t r) k := by
    funext a
    apply Fin.ext
    have hu : u.val = 0 := by omega
    obtain ⟨-, -, e2⟩ := idx_out t
    match a with
    | ⟨0, _⟩ => show win0_8.index t (0 : Fin 3) * 1 + 1 * u.val = win0_8.index t (0 : Fin 3); omega
    | ⟨1, _⟩ => show win0_8.index t (1 : Fin 3) * 256 + 1 * r.val = win0_8.index t (1 : Fin 3) * 256 + r.val; omega
    | ⟨2, _⟩ => show win0_8.index t (2 : Fin 3) * 2048 + 1 * k.val = k.val; omega
  rw [he]
  refine (Body.pay_apply (iblk m c 0 t) (iblk m c 1 t) (iblk m c 2 t) (iblk m c 3 t) (iblk m c 4 t) (iblk m c 5 t) (iblk m c 6 t) (iblk m c 7 t) u r k).trans ?_
  show Spec.softmax _ k = Spec.softmax (fun k' => Spec.logit (X m c) (W m c) (bat t) (row t r) k') k
  exact congrArg (fun L => Spec.softmax L k) (funext fun k' => lgt_eq m hx hw c t r k')

/-- An index of the array is in point `t`'s block iff each coordinate is in the block's range on its axis. -/
theorem mem_blk (t : Fin cfg0.N) (i : S8x2048x2048.Idx) :
    i ∈ ((cfg0.win 8).blk t).view.set ↔ ∀ a : Fin 3, win0_8.index t a * S1x256x2048.size a ≤ (i a).val ∧ (i a).val < win0_8.index t a * S1x256x2048.size a + S1x256x2048.size a := by
  show i ∈ ((View.whole main_v14).slice (win0_8.rect t)).set ↔ _
  rw [View.set_slice_whole, Rect.mem_set_unit]
  exact Iff.rfl

/-- Every index of the array lies in some point's block: the one of its batch and of its row's block of 256. -/
theorem cover (i : S8x2048x2048.Idx) : ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_8.index t (0 : Fin 3) = (i 0).val := congrFun ht 0
  have q1 : win0_8.index t (1 : Fin 3) = (i 1).val / 256 := congrFun ht 1
  have q2 : win0_8.index t (2 : Fin 3) = 0 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 2048 ≤ (i 2).val ∧ (i 2).val < win0_8.index t (2 : Fin 3) * 2048 + 2048; omega

/-- The result array after the run is `Spec.G` of the two arguments. -/
theorem final (hx : ∀ c i, IsReal (X m c i)) (hw : ∀ c i, IsReal (W m c i)) (c : Dev nD) :
    (dats m 0 c).arrAt 8 cfg0.N = Spec.G (X m c) (W m c) :=
  (dats m 0 c).arrAt_eq_of_cover 8 (Spec.G (X m c) (W m c)) (fun t _ => flushed_eq m hx hw c t) cover

/-- The run, read: the result array at `Spec.G` of the arguments, the arguments unchanged. -/
theorem run (hx : ∀ c i, IsReal (X m c i)) (hw : ∀ c i, IsReal (W m c i)) :
    θ_run defs (onTc (τ := τ) (main (F := Ideal))) ⟨m, fun _ => 0, ρ⟩ fun r => ∀ c : Dev nD,
      r.2.mem ((c : Thread nD τ).loc main_v14) = Spec.G (X m c) (W m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hx hw c), (h c).2⟩)
    (Value.run_blocks m ρ)

end Cert.KernelIdeal.Blocks

end
-- ==== Proof.RefValue.lean ====
import proofs.«427150_j41609643164190_3_alg».proof.Proof.Gen.ReferenceIdeal.Read
import proofs.«427150_j41609643164190_3_alg».proof.Proof.Spec
import Idealize.ShloMosaic.Lib.Pipeline.Value
import Idealize.ShloMosaic.Lib.ValueIdx
import Idealize.ShloMosaic.PureOps.Ideal.Laws

/-!
  The reference's result, operation by operation, is `Spec.G` of its two arguments: its squared norms, inner
  products, clamped distances, weights, logits and row softmax are the specification's, index by index.
-/

noncomputable section

open scoped BigOperators

namespace Cert.ReferenceIdeal.RefValue

open Cert.ReferenceIdeal Cert.ReferenceIdeal.Gen Cert.ReferenceIdeal.Read Idealize.ShloMosaic Idealize.ShloMosaic.ValueIdx

/-- The squared norm of a point: the first reduction sums the squares of its 64 coordinates. -/
theorem v1_at (x : FVec Ideal S8x2048x64 .f32) (n : Fin 8) (p : Fin 2048) :
    val_main_v1 (F := Ideal) x (ix2 n p) = Spec.sqn x n p := by
  rw [val_main_v1_apply, val_main_cst_apply]
  unfold Spec.sqn
  refine congrArg (_ + ·) (Finset.sum_congr rfl fun c _ => ?_)
  rw [val_main_v0_apply]
  have e : idx_main_v1 (ix2 n p) c = ix3 n p c :=
    funext fun a => Fin.ext (by match a with | ⟨0, _⟩ => rfl | ⟨1, _⟩ => rfl | ⟨2, _⟩ => rfl)
  rw [e]
  rfl

/-- The two broadcasts of the squared norms, along the rows and along the columns, added. -/
theorem v6_at (x : FVec Ideal S8x2048x64 .f32) (n : Fin 8) (p j : Fin 2048) :
    val_main_v6 (F := Ideal) x (ix3 n p j) = Spec.sqn x n p + Spec.sqn x n j := by
  rw [val_main_v6_apply, val_main_v4_apply, val_main_v2_apply, val_main_v5_apply, val_main_v3_apply]
  have e1 : idx_main_v2 (idx_main_v4 (ix3 n p j)) = ix2 n p :=
    funext fun a => Fin.ext (by match a with | ⟨0, _⟩ => rfl | ⟨1, _⟩ => rfl)
  have e2 : idx_main_v3 (idx_main_v5 (ix3 n p j)) = ix2 n j :=
    funext fun a => Fin.ext (by match a with | ⟨0, _⟩ => rfl | ⟨1, _⟩ => rfl)
  rw [e1, e2, v1_at, v1_at]
  rfl

/-- The batched product of the points with themselves is the table of inner products. -/
theorem v7_at (x : FVec Ideal S8x2048x64 .f32) (n : Fin 8) (p j : Fin 2048) :
    val_main_v7 (F := Ideal) x (ix3 n p j) = Spec.gram x n p j := by
  rw [val_main_v7_apply]
  unfold Spec.gram
  refine Finset.sum_congr rfl fun c _ => ?_
  have el : lidx_main_v7 (ix3 n p j) c = ix3 n p c :=
    funext fun a => Fin.ext (by match a with | ⟨0, _⟩ => rfl | ⟨1, _⟩ => rfl | ⟨2, _⟩ => rfl)
  have er : ridx_main_v7 (ix3 n p j) c = ix3 n j c :=
    funext fun a => Fin.ext (by match a with | ⟨0, _⟩ => rfl | ⟨1, _⟩ => rfl | ⟨2, _⟩ => rfl)
  rw [el, er]

/-- The clamped squared distance. -/
theorem v12_at (x : FVec Ideal S8x2048x64 .f32) (n : Fin 8) (p j : Fin 2048) :
    val_main_v12 (F := Ideal) x (ix3 n p j)
      = Spec.dsq (Spec.sqn x n p) (Spec.sqn x n j) (Spec.gram x n p j) := by
  rw [val_main_v12_apply, val_main_v10_apply, val_main_v9_apply, val_main_v8_apply, val_main_cst_0_apply,
    val_main_v11_apply, val_main_cst_1_apply, v6_at, v7_at]
  rfl

/-- The weight: the guarded square root of the clamped squared distance, halved, negated and exponentiated. -/
theorem v22_at (x : FVec Ideal S8x2048x64 .f32) (n : Fin 8) (p j : Fin 2048) :
    val_main_v22 (F := Ideal) x (ix3 n p j) = Spec.wgt x n p j := by
  rw [val_main_v22_apply, val_main_v21_apply, val_main_v20_apply, val_main_cst_6_apply, val_main_v19_apply,
    val_main_v17_apply, val_main_v16_apply, val_main_cst_4_apply, val_main_v18_apply, val_main_v15_apply,
    val_main_v14_apply, val_main_v13_apply, val_main_cst_2_apply, val_main_call0_v1_apply,
    val_main_call0_v0_apply, val_main_cst_3_apply, val_main_call1_v1_apply, val_main_call1_v0_apply,
    val_main_cst_5_apply, v12_at]
  rfl

/-- The logits: the weights' product with the second argument. -/
theorem v23_at (x : FVec Ideal S8x2048x64 .f32) (w : FVec Ideal S2048x2048 .f32) (n : Fin 8) (p k : Fin 2048) :
    val_main_v23 (F := Ideal) x w (ix3 n p k) = Spec.logit x w n p k := by
  rw [val_main_v23_apply]
  unfold Spec.logit
  refine Finset.sum_congr rfl fun j _ => ?_
  have el : lidx_main_v23 (ix3 n p k) j = ix3 n p j :=
    funext fun a => Fin.ext (by match a with | ⟨0, _⟩ => rfl | ⟨1, _⟩ => rfl | ⟨2, _⟩ => rfl)
  have er : ridx_main_v23 (ix3 n p k) j = ix2 j k :=
    funext fun a => Fin.ext (by match a with | ⟨0, _⟩ => rfl | ⟨1, _⟩ => rfl)
  rw [el, er, v22_at]

/-- The row maximum of the logits: the reduction folds `max` from `−∞` over the last axis. -/
theorem v24_at (x : FVec Ideal S8x2048x64 .f32) (w : FVec Ideal S2048x2048 .f32) (n : Fin 8) (p : Fin 2048) :
    val_main_v24 (F := Ideal) x w (ix2 n p) = Spec.rowMax (fun k => Spec.logit x w n p k) := by
  have h : S8x2048x2048.Reduces [2] S8x2048 := by decide
  unfold val_main_v24
  rw [Host.reduce_eq_fold_single FloatOps.maximumf _ _ reducesTo_S8x2048x2048_S8x2048_d2 h h_S_ _]
  have e : (val_main_v23 (F := Ideal) x w ∘ h.lift (ix2 n p)) = fun k : Fin 2048 => Spec.logit x w n p k :=
    funext fun (k : Fin 2048) => by
      refine Eq.trans ?_ (v23_at x w n p k)
      exact congrArg (val_main_v23 (F := Ideal) x w)
        (funext fun a => Fin.ext (by match a with | ⟨0, _⟩ => rfl | ⟨1, _⟩ => rfl | ⟨2, _⟩ => rfl))
  rw [e]
  rfl

/-- The maximum with `−∞` once more is still the row maximum. -/
theorem v26_at (x : FVec Ideal S8x2048x64 .f32) (w : FVec Ideal S2048x2048 .f32) (n : Fin 8) (p : Fin 2048) :
    val_main_v26 (F := Ideal) x w (ix2 n p) = Spec.rowMax (fun k => Spec.logit x w n p k) := by
  rw [val_main_v26_apply, val_main_v25_apply, val_main_cst_8_apply, v24_at]
  exact Spec.max_rowMax _

/-- The numerator of the softmax: the exponential of a logit less its row's maximum. -/
theorem v30_at (x : FVec Ideal S8x2048x64 .f32) (w : FVec Ideal S2048x2048 .f32) (n : Fin 8) (p k : Fin 2048) :
    val_main_v30 (F := Ideal) x w (ix3 n p k)
      = Ideal.exp (Spec.logit x w n p k - Spec.rowMax (fun k' => Spec.logit x w n p k')) := by
  rw [val_main_v30_apply, val_main_v29_apply, val_main_v28_apply, val_main_v27_apply, v23_at]
  have e : idx_main_v27 (idx_main_v28 (ix3 n p k)) = ix2 n p :=
    funext fun a => Fin.ext (by match a with | ⟨0, _⟩ => rfl | ⟨1, _⟩ => rfl)
  rw [e, v26_at]
  rfl

/-- The denominator of the softmax: the row's sum of the numerators (the sum starts at zero). -/
theorem v31_at (x : FVec Ideal S8x2048x64 .f32) (w : FVec Ideal S2048x2048 .f32) (n : Fin 8) (p : Fin 2048) :
    val_main_v31 (F := Ideal) x w (ix2 n p)
      = ∑ k : Fin 2048, Ideal.exp (Spec.logit x w n p k - Spec.rowMax (fun k' => Spec.logit x w n p k')) := by
  rw [val_main_v31_apply, val_main_cst_9_apply]
  have h0 : FloatOps.ofBits (F := Ideal) .f32 0x00000000#32 = 0 := Spec.zero_eq
  rw [h0, zero_add]
  refine Finset.sum_congr rfl fun k _ => ?_
  have e : idx_main_v31 (ix2 n p) k = ix3 n p k :=
    funext fun a => Fin.ext (by match a with | ⟨0, _⟩ => rfl | ⟨1, _⟩ => rfl | ⟨2, _⟩ => rfl)
  rw [e, v30_at]

/-- The reference's last stage is the specification. -/
theorem result_eq (x : FVec Ideal S8x2048x64 .f32) (w : FVec Ideal S2048x2048 .f32) :
    val_main_v34 (F := Ideal) x w = Spec.G x w := by
  funext i
  obtain ⟨n, p, k, rfl⟩ : ∃ (n : Fin 8) (p k : Fin 2048), i = ix3 n p k := ⟨i 0, i 1, i 2, eq_ix3 i⟩
  rw [val_main_v34_apply, val_main_v33_apply, val_main_v32_apply, v30_at]
  have e : idx_main_v32 (idx_main_v33 (ix3 n p k)) = ix2 n p :=
    funext fun a => Fin.ext (by match a with | ⟨0, _⟩ => rfl | ⟨1, _⟩ => rfl)
  rw [e, v31_at]
  rfl

end Cert.ReferenceIdeal.RefValue

end
-- ==== Proof.Finite.lean ====
import proofs.«427150_j41609643164190_3_alg».proof.Defs
import proofs.«427150_j41609643164190_3_alg».proof.Proof.Gen.Pre_finite_inputs
import proofs.«427150_j41609643164190_3_alg».proof.Proof.Spec
import Idealize.ShloMosaic.Lib.ReduceAll
import Idealize.ShloMosaic.Lib.ValueIdx

/-!
  The precondition, read: every entry of both argument arrays is a real number.
-/

noncomputable section

namespace Cert.Finite

open Idealize.ShloMosaic Idealize.SL.Sem Cert.LibReal

/-- The word the predicate compares against is `+∞`. -/
theorem inf_eq : Ideal.ofBits .f32 0x7F800000#32 = (⊤ : EReal) := by
  simp [Ideal.ofBits, Ideal.ieee]

/-- An extended real whose absolute value `max v (-v)` compares below `+∞` is a real number. -/
theorem isReal_of_abs_lt (v : EReal)
    (h : Ideal.cmp .olt (max v (-v)) (Ideal.ofBits .f32 0x7F800000#32) = 1#1) : IsReal v := by
  rw [inf_eq] at h
  induction v using EReal.rec with
  | bot => exact absurd h (by simp [Ideal.cmp])
  | coe r => exact ⟨r, rfl⟩
  | top => exact absurd h (by simp [Ideal.cmp])

/-- Where the printed predicate is all ones, every entry of both arrays is real. -/
theorem isReal_of_fn [Cert.Pre_finite_inputs.Facts] (x : FVec Ideal Cert.Pre_finite_inputs.S8x2048x64 .f32)
    (w : FVec Ideal Cert.Pre_finite_inputs.S2048x2048 .f32)
    (h : Cert.Pre_finite_inputs.fn (F := Ideal) x w = fun _ => 1#1) :
    (∀ i, IsReal (x i)) ∧ (∀ i, IsReal (w i)) := by
  -- the scalar result shape has a single index
  haveI : Subsingleton Cert.Pre_finite_inputs.S_.Idx := ⟨fun a b => funext fun d => d.elim0⟩
  -- the predicate's one word is the conjunction of the two reductions by `and`
  have h0 := congrFun h ValueIdx.ix0
  dsimp only [Cert.Pre_finite_inputs.fn] at h0
  obtain ⟨hx, hw⟩ := IntOp.andi_eq_one.1 h0
  -- a reduction by `and` over every axis that is one had a one at every index: `|v| < +∞` entrywise
  refine ⟨fun i => ?_, fun i => ?_⟩
  · exact isReal_of_abs_lt (x i) (Host.reduce_andi_all _ _ _ _ _ hx i)
  · exact isReal_of_abs_lt (w i) (Host.reduce_andi_all _ _ _ _ _ hw i)

end Cert.Finite

end
-- ==== Proof.lean ====
/-
  A row softmax of Gaussian-kernel logits: kernel against reference, over the extended reals.

  For points `x : [8, 2048, 64]` and a matrix `w : [2048, 2048]` both programs compute, batch by batch,
  `softmax_k (Σ_j exp (−½ · ‖x_p − x_j‖) · w[j, k])`, the distance taken from the expansion
  `‖x_p‖² + ‖x_j‖² − 2 ⟨x_p, x_j⟩`, clamped at zero, with a guarded square root.  The reference does this with
  whole-array operations.  The kernel splits every matrix operand into a value and a remainder `v − v` and
  forms each product as three; on finite inputs every remainder is zero, so the three products are the one
  (`Spec.split3`), and that is the only use of the precondition.  After it the two programs are the same
  composition of operations, index by index (`Spec.G`).

  The modules: `Spec` (the function and the algebra), `BodyValue` (the kernel body's stored value at an
  index), `Staged` (what the region finds in the arrays it stages), `Blocks` (from the grid's blocks to the
  whole array), `RefValue` (the reference is `Spec.G`), `Finite` (the precondition read as "every entry is a
  real number").
-/
import proofs.«427150_j41609643164190_3_alg».proof.Defs
import proofs.«427150_j41609643164190_3_alg».proof.Proof.Gen.Kernel
import proofs.«427150_j41609643164190_3_alg».proof.Proof.Gen.Kernel.Skeleton
import proofs.«427150_j41609643164190_3_alg».proof.Proof.Gen.Kernel.Launch
import proofs.«427150_j41609643164190_3_alg».proof.Proof.Gen.Kernel.Points
import proofs.«427150_j41609643164190_3_alg».proof.Proof.Gen.Kernel.Frame
import proofs.«427150_j41609643164190_3_alg».proof.Proof.Gen.KernelIdeal
import proofs.«427150_j41609643164190_3_alg».proof.Proof.Gen.KernelIdeal.Skeleton
import proofs.«427150_j41609643164190_3_alg».proof.Proof.Gen.KernelIdeal.Launch
import proofs.«427150_j41609643164190_3_alg».proof.Proof.Gen.KernelIdeal.Points
import proofs.«427150_j41609643164190_3_alg».proof.Proof.Gen.KernelIdeal.Frame
import proofs.«427150_j41609643164190_3_alg».proof.Proof.Gen.ReferenceIdeal
import proofs.«427150_j41609643164190_3_alg».proof.Proof.Gen.Pre_finite_inputs
import proofs.«427150_j41609643164190_3_alg».proof.Proof.Gen.KernelIdeal.Value
import proofs.«427150_j41609643164190_3_alg».proof.Proof.Gen.ReferenceIdeal.Run
import proofs.«427150_j41609643164190_3_alg».proof.Proof.Gen.ReferenceIdeal.Read
import proofs.«427150_j41609643164190_3_alg».proof.Proof.Blocks
import proofs.«427150_j41609643164190_3_alg».proof.Proof.RefValue
import proofs.«427150_j41609643164190_3_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: widening back a narrowed vector is the identity on extended reals, and the
    rounding through the narrow format on words. -/
theorem preserves : Cert.preserves_Kernel_KernelIdeal :=
  IdealRules.truncf_extf.statement Cert.KernelIdeal.S256x2048 .f32 .bf16

/-- Both programs end with the result array at `Spec.G` of the arguments: the kernel block by block, the reference
    operation by operation; the precondition makes every entry real, which the kernel's side needs. -/
theorem algebraic : Cert.algebraic_KernelIdeal_ReferenceIdeal := by
  intro m ρ m' ρ' hpre hagree
  have hreal := fun c => Cert.Finite.isReal_of_fn _ _ (hpre c)
  refine ⟨fun c => Cert.Spec.G (Cert.KernelIdeal.Staged.X m c) (Cert.KernelIdeal.Staged.W m c),
    Cert.KernelIdeal.Blocks.run m ρ (fun c => (hreal c).1) (fun c => (hreal c).2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v34_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
